-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_arg7 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x128 .f32) (main_arg6 : FVec F S128 .f32) (main_arg7 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 66
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x256, .f32⟩
  | .hbm, ⟨38, _⟩ => ⟨S50000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S50000x256, .f32⟩
  | .hbm, ⟨50, _⟩ => ⟨S800000x1, .i32⟩
  | .hbm, ⟨51, _⟩ => ⟨S50000x256, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x256, .f32⟩
  | .hbm, ⟨63, _⟩ => ⟨S50000x256, .f32⟩
  | .hbm, ⟨64, _⟩ => ⟨S1x128, .f32⟩
  | .hbm, ⟨65, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Layer0.lean ====
/-
  The first layer's dense step, read as one array.
  Each of the 25 grid points takes 2000 rows of the aggregated neighbour features A and of the node features X,
  multiplies them by the two weight matrices, adds the bias row and clamps at zero. The row blocks tile the
  50000 rows, so the array the region leaves is ONE function of the region's operands, entry by entry:
  max ((∑ₖ A[r,k]·Wl[k,c] + ∑ₖ X[r,k]·Wr[k,c]) + b[0,c], 0).
-/
import proofs.«176991_j33432025432488_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block product at an entry: a sum over the shared coordinate -/

theorem lhs_axis0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_axis1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_axis0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_axis1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A 2000×128 block times a 128×256 matrix, into a zero accumulator, at (p, q): the row of the one against the
    column of the other, summed over the 128 shared coordinates. -/
theorem block_product_at {φ₁ φ₂ : FTy} (l : FVec Ideal S2000x128 φ₁) (r : FVec Ideal S128x256 φ₂) (p : Fin 2000) (q : Fin 256) :
    matmul dot_S2000x128_S128x256_S2000x256_1_0_0_1_n_n none l r (constant S2000x256 .f32 0x00000000#32) (ix2 p q)
      = ∑ k : Fin 128, l (ix2 p k) * r (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias row broadcast down the 2000 rows reads, at (p, q), the row's entry q. -/
theorem bias_row_at {α : Type} (v : S1x256.Idx → α) (h : S1x256.Broadcasts S2000x256) (p : Fin 2000) (q : Fin 256) :
    broadcastTo S2000x256 v h (ix2 p q) = v (ix2 (0 : Fin 1) q) := by
  refine broadcastTo_apply v h (ix2 p q) (ix2 (0 : Fin 1) q) fun a => ?_
  match a with
  | ⟨0, _⟩ => rfl
  | ⟨1, _⟩ => rfl

/-! ## What one grid point computes, at an entry -/

/-- The body's one stored value at (p, q), from the five blocks it loads. The changes of float format are the identity
    on the extended reals. -/
theorem stored_at (x0 x1 : Vec Ideal S2000x128 .f32) (x2 x3 : Vec Ideal S128x256 .f32) (x4 : Vec Ideal S1x256 .f32) (p : Fin 2000) (q : Fin 256) :
    k0_pay1 x0 x1 x2 x3 x4 (ix2 p q)
      = max ((∑ k : Fin 128, x0 (ix2 p k) * x2 (ix2 k q) + ∑ k : Fin 128, x1 (ix2 p k) * x3 (ix2 k q)) + x4 (ix2 (0 : Fin 1) q)) (Ideal.ofBits .f32 0x00000000#32) := by
  unfold k0_pay1
  simp only [maximumf_apply, broadcast_apply, addf_apply, block_product_at, bias_row_at, truncf_apply, shapeCast_self]
  rfl

/-! ## The whole array -/

/-- The dense step's result at row r, column c. -/
def denseAt (A X : FVec Ideal S50000x128 .f32) (Wl Wr : FVec Ideal S128x256 .f32) (b : FVec Ideal S1x256 .f32) (r : Fin 50000) (c : Fin 256) : Ideal .f32 :=
  max ((∑ k : Fin 128, A (ix2 r k) * Wl (ix2 k c) + ∑ k : Fin 128, X (ix2 r k) * Wr (ix2 k c)) + b (ix2 (0 : Fin 1) c)) (Ideal.ofBits .f32 0x00000000#32)

/-- The dense step's result as an array. -/
def dense (A X : FVec Ideal S50000x128 .f32) (Wl Wr : FVec Ideal S128x256 .f32) (b : FVec Ideal S1x256 .f32) : FVec Ideal S50000x256 .f32 :=
  fun i => denseAt A X Wl Wr b ⟨(i 0).val, (i 0).isLt⟩ ⟨(i 1).val, (i 1).isLt⟩

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point t takes row block t of A, of X and of the result; the weights and the bias
    are taken whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT t WRITES BACK is row block t of `dense` of the region's operands as the region finds them. -/
theorem flushed_eq (c : Dev nD) (t : Fin cfg0.N) :
    (dat0 V c).flushed 5 t = ((cfg0.win 5).blk t).view.read (Elt Ideal)
      (dense (V c main_v22) (V c main_arg0) (V c main_arg2) (V c main_arg4) (V c main_v23)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  obtain ⟨e00, e01, e10, e11, e20, e21, e30, e31, e40, e41, e50, e51⟩ := idx_facts t
  funext j
  have hj0 : (j 0).val < 2000 := (j 0).isLt
  have hj1 : (j 1).val < 256 := (j 1).isLt
  have ht : t.val < 25 := t.isLt
  refine ((congrArg (k0_pay1 (iblk0 V c 0 t) (iblk0 V c 1 t) (iblk0 V c 2 t) (iblk0 V c 3 t) (iblk0 V c 4 t)) (eq_ix2 j)).trans
    (stored_at (iblk0 V c 0 t) (iblk0 V c 1 t) (iblk0 V c 2 t) (iblk0 V c 3 t) (iblk0 V c 4 t) (j 0) (j 1))).trans ?_
  -- each block entry is the array's entry at the block's place
  have hA : ∀ k : Fin 128, iblk0 V c 0 t (ix2 (j 0) k) = V c main_v22 (ix2 (⟨t.val * 2000 + (j 0).val, by omega⟩ : Fin 50000) k) := fun k => by
    show V c main_v22 (((cfg0.win 0).blk t).view.emb (ix2 (j 0) k)) = _
    refine congrArg (V c main_v22) (funext fun a => Fin.ext ?_)
    match a with
    | ⟨0, _⟩ => show win0_0.index t (0 : Fin 2) * 2000 + 1 * (j 0).val = t.val * 2000 + (j 0).val; omega
    | ⟨1, _⟩ => show win0_0.index t (1 : Fin 2) * 128 + 1 * k.val = k.val; omega
  have hX : ∀ k : Fin 128, iblk0 V c 1 t (ix2 (j 0) k) = V c main_arg0 (ix2 (⟨t.val * 2000 + (j 0).val, by omega⟩ : Fin 50000) k) := fun k => by
    show V c main_arg0 (((cfg0.win 1).blk t).view.emb (ix2 (j 0) k)) = _
    refine congrArg (V c main_arg0) (funext fun a => Fin.ext ?_)
    match a with
    | ⟨0, _⟩ => show win0_1.index t (0 : Fin 2) * 2000 + 1 * (j 0).val = t.val * 2000 + (j 0).val; omega
    | ⟨1, _⟩ => show win0_1.index t (1 : Fin 2) * 128 + 1 * k.val = k.val; omega
  have hWl : ∀ k : Fin 128, iblk0 V c 2 t (ix2 k (j 1)) = V c main_arg2 (ix2 k (⟨(j 1).val, hj1⟩ : Fin 256)) := fun k => by
    show V c main_arg2 (((cfg0.win 2).blk t).view.emb (ix2 k (j 1))) = _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 256 + 1 * (j 1).val = (j 1).val; omega
  have hWr : ∀ k : Fin 128, iblk0 V c 3 t (ix2 k (j 1)) = V c main_arg4 (ix2 k (⟨(j 1).val, hj1⟩ : Fin 256)) := fun k => by
    show V c main_arg4 (((cfg0.win 3).blk t).view.emb (ix2 k (j 1))) = _
    refine congrArg (V c main_arg4) (funext fun a => Fin.ext ?_)
    match a with
    | ⟨0, _⟩ => show win0_3.index t (0 : Fin 2) * 128 + 1 * k.val = k.val; omega
    | ⟨1, _⟩ => show win0_3.index t (1 : Fin 2) * 256 + 1 * (j 1).val = (j 1).val; omega
  have hB : iblk0 V c 4 t (ix2 (0 : Fin 1) (j 1)) = V c main_v23 (ix2 (0 : Fin 1) (⟨(j 1).val, hj1⟩ : Fin 256)) := by
    show V c main_v23 (((cfg0.win 4).blk t).view.emb (ix2 (0 : Fin 1) (j 1))) = _
    refine congrArg (V c main_v23) (funext fun a => Fin.ext ?_)
    match a with
    | ⟨0, _⟩ => show win0_4.index t (0 : Fin 2) * 1 + 1 * 0 = 0; omega
    | ⟨1, _⟩ => show win0_4.index t (1 : Fin 2) * 256 + 1 * (j 1).val = (j 1).val; omega
  simp only [hA, hX, hWl, hWr, hB]
  -- the result block's place in the array
  show _ = denseAt (V c main_v22) (V c main_arg0) (V c main_arg2) (V c main_arg4) (V c main_v23)
    ⟨((((cfg0.win 5).blk t).view.emb j) 0).val, _⟩ ⟨((((cfg0.win 5).blk t).view.emb j) 1).val, _⟩
  have r0 : (⟨((((cfg0.win 5).blk t).view.emb j) 0).val, ((((cfg0.win 5).blk t).view.emb j) 0).isLt⟩ : Fin 50000) = ⟨t.val * 2000 + (j 0).val, by omega⟩ :=
    Fin.ext (by show win0_5.index t (0 : Fin 2) * 2000 + 1 * (j 0).val = t.val * 2000 + (j 0).val; omega)
  have r1 : (⟨((((cfg0.win 5).blk t).view.emb j) 1).val, ((((cfg0.win 5).blk t).view.emb j) 1).isLt⟩ : Fin 256) = ⟨(j 1).val, hj1⟩ :=
    Fin.ext (by show win0_5.index t (1 : Fin 2) * 256 + 1 * (j 1).val = (j 1).val; omega)
  rw [r0, r1]
  rfl

/-- An index of the array is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- Every row lies in the block of the point numbered by the row divided by 2000. -/
theorem covered (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  let t : Fin cfg0.N := ⟨(i 0).val / 2000, by show (i 0).val / 2000 < 25; omega⟩
  obtain ⟨e00, e01, e10, e11, e20, e21, e30, e31, e40, e41, e50, e51⟩ := idx_facts t
  have htv : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE ARRAY the region leaves: `dense` of its operands as it finds them. -/
theorem final (c : Dev nD) :
    (dat0 V c).arrAt 5 cfg0.N = dense (V c main_v22) (V c main_arg0) (V c main_arg2) (V c main_arg4) (V c main_v23) :=
  (dat0 V c).arrAt_eq_of_cover 5 _ (fun t _ => flushed_eq V c t) covered

end Cert.KernelIdeal.Layer0

end
-- ==== Proof.Layer1.lean ====
/-
  The second layer's dense step, read as one array.
  Each of the 25 grid points takes 2000 rows of the aggregated hidden features A and of the hidden features X,
  multiplies them by the two weight matrices and adds the bias row; there is no clamp in this layer. The row blocks
  tile the 50000 rows, so the array the region leaves is ONE function of the region's operands, entry by entry:
  (∑ₖ A[r,k]·Wl[k,c] + ∑ₖ X[r,k]·Wr[k,c]) + b[0,c].
-/
import proofs.«176991_j33432025432488_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block product at an entry: a sum over the shared coordinate -/

theorem lhs_axis0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_axis1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_axis0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_axis1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A 2000×256 block times a 256×128 matrix, into a zero accumulator, at (p, q): the row of the one against the
    column of the other, summed over the 256 shared coordinates. -/
theorem block_product_at {φ₁ φ₂ : FTy} (l : FVec Ideal S2000x256 φ₁) (r : FVec Ideal S256x128 φ₂) (p : Fin 2000) (q : Fin 128) :
    matmul dot_S2000x256_S256x128_S2000x128_1_0_0_1_n_n none l r (constant S2000x128 .f32 0x00000000#32) (ix2 p q)
      = ∑ k : Fin 256, l (ix2 p k) * r (ix2 k q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-- The bias row broadcast down the 2000 rows reads, at (p, q), the row's entry q. -/
theorem bias_row_at {α : Type} (v : S1x128.Idx → α) (h : S1x128.Broadcasts S2000x128) (p : Fin 2000) (q : Fin 128) :
    broadcastTo S2000x128 v h (ix2 p q) = v (ix2 (0 : Fin 1) q) := by
  refine broadcastTo_apply v h (ix2 p q) (ix2 (0 : Fin 1) q) fun a => ?_
  match a with
  | ⟨0, _⟩ => rfl
  | ⟨1, _⟩ => rfl

/-! ## What one grid point computes, at an entry -/

/-- The body's one stored value at (p, q), from the five blocks it loads. The changes of float format are the identity
    on the extended reals. -/
theorem stored_at (x0 x1 : Vec Ideal S2000x256 .f32) (x2 x3 : Vec Ideal S256x128 .f32) (x4 : Vec Ideal S1x128 .f32) (p : Fin 2000) (q : Fin 128) :
    k1_pay1 x0 x1 x2 x3 x4 (ix2 p q)
      = (∑ k : Fin 256, x0 (ix2 p k) * x2 (ix2 k q) + ∑ k : Fin 256, x1 (ix2 p k) * x3 (ix2 k q)) + x4 (ix2 (0 : Fin 1) q) := by
  unfold k1_pay1
  simp only [addf_apply, block_product_at, bias_row_at, truncf_apply, shapeCast_self]

/-! ## The whole array -/

/-- The dense step's result at row r, column c. -/
def denseAt (A X : FVec Ideal S50000x256 .f32) (Wl Wr : FVec Ideal S256x128 .f32) (b : FVec Ideal S1x128 .f32) (r : Fin 50000) (c : Fin 128) : Ideal .f32 :=
  (∑ k : Fin 256, A (ix2 r k) * Wl (ix2 k c) + ∑ k : Fin 256, X (ix2 r k) * Wr (ix2 k c)) + b (ix2 (0 : Fin 1) c)

/-- The dense step's result as an array. -/
def dense (A X : FVec Ideal S50000x256 .f32) (Wl Wr : FVec Ideal S256x128 .f32) (b : FVec Ideal S1x128 .f32) : FVec Ideal S50000x128 .f32 :=
  fun i => denseAt A X Wl Wr b ⟨(i 0).val, (i 0).isLt⟩ ⟨(i 1).val, (i 1).isLt⟩

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point t takes row block t of A, of X and of the result; the weights and the bias
    are taken whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT t WRITES BACK is row block t of `dense` of the region's operands as the region finds them. -/
theorem flushed_eq (c : Dev nD) (t : Fin cfg1.N) :
    (dat1 V c).flushed 5 t = ((cfg1.win 5).blk t).view.read (Elt Ideal)
      (dense (V c main_v43) (V c main_v24) (V c main_arg5) (V c main_arg7) (V c main_v44)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  obtain ⟨e00, e01, e10, e11, e20, e21, e30, e31, e40, e41, e50, e51⟩ := idx_facts t
  funext j
  have hj0 : (j 0).val < 2000 := (j 0).isLt
  have hj1 : (j 1).val < 128 := (j 1).isLt
  have ht : t.val < 25 := t.isLt
  refine ((congrArg (k1_pay1 (iblk1 V c 0 t) (iblk1 V c 1 t) (iblk1 V c 2 t) (iblk1 V c 3 t) (iblk1 V c 4 t)) (eq_ix2 j)).trans
    (stored_at (iblk1 V c 0 t) (iblk1 V c 1 t) (iblk1 V c 2 t) (iblk1 V c 3 t) (iblk1 V c 4 t) (j 0) (j 1))).trans ?_
  -- each block entry is the array's entry at the block's place
  have hA : ∀ k : Fin 256, iblk1 V c 0 t (ix2 (j 0) k) = V c main_v43 (ix2 (⟨t.val * 2000 + (j 0).val, by omega⟩ : Fin 50000) k) := fun k => by
    show V c main_v43 (((cfg1.win 0).blk t).view.emb (ix2 (j 0) k)) = _
    refine congrArg (V c main_v43) (funext fun a => Fin.ext ?_)
    match a with
    | ⟨0, _⟩ => show win1_0.index t (0 : Fin 2) * 2000 + 1 * (j 0).val = t.val * 2000 + (j 0).val; omega
    | ⟨1, _⟩ => show win1_0.index t (1 : Fin 2) * 256 + 1 * k.val = k.val; omega
  have hX : ∀ k : Fin 256, iblk1 V c 1 t (ix2 (j 0) k) = V c main_v24 (ix2 (⟨t.val * 2000 + (j 0).val, by omega⟩ : Fin 50000) k) := fun k => by
    show V c main_v24 (((cfg1.win 1).blk t).view.emb (ix2 (j 0) k)) = _
    refine congrArg (V c main_v24) (funext fun a => Fin.ext ?_)
    match a with
    | ⟨0, _⟩ => show win1_1.index t (0 : Fin 2) * 2000 + 1 * (j 0).val = t.val * 2000 + (j 0).val; omega
    | ⟨1, _⟩ => show win1_1.index t (1 : Fin 2) * 256 + 1 * k.val = k.val; omega
  have hWl : ∀ k : Fin 256, iblk1 V c 2 t (ix2 k (j 1)) = V c main_arg5 (ix2 k (⟨(j 1).val, hj1⟩ : Fin 128)) := fun k => by
    show V c main_arg5 (((cfg1.win 2).blk t).view.emb (ix2 k (j 1))) = _
    refine congrArg (V c main_arg5) (funext fun a => Fin.ext ?_)
    match a with
    | ⟨0, _⟩ => show win1_2.index t (0 : Fin 2) * 256 + 1 * k.val = k.val; omega
    | ⟨1, _⟩ => show win1_2.index t (1 : Fin 2) * 128 + 1 * (j 1).val = (j 1).val; omega
  have hWr : ∀ k : Fin 256, iblk1 V c 3 t (ix2 k (j 1)) = V c main_arg7 (ix2 k (⟨(j 1).val, hj1⟩ : Fin 128)) := fun k => by
    show V c main_arg7 (((cfg1.win 3).blk t).view.emb (ix2 k (j 1))) = _
    refine congrArg (V c main_arg7) (funext fun a => Fin.ext ?_)
    match a with
    | ⟨0, _⟩ => show win1_3.index t (0 : Fin 2) * 256 + 1 * k.val = k.val; omega
    | ⟨1, _⟩ => show win1_3.index t (1 : Fin 2) * 128 + 1 * (j 1).val = (j 1).val; omega
  have hB : iblk1 V c 4 t (ix2 (0 : Fin 1) (j 1)) = V c main_v44 (ix2 (0 : Fin 1) (⟨(j 1).val, hj1⟩ : Fin 128)) := by
    show V c main_v44 (((cfg1.win 4).blk t).view.emb (ix2 (0 : Fin 1) (j 1))) = _
    refine congrArg (V c main_v44) (funext fun a => Fin.ext ?_)
    match a with
    | ⟨0, _⟩ => show win1_4.index t (0 : Fin 2) * 1 + 1 * 0 = 0; omega
    | ⟨1, _⟩ => show win1_4.index t (1 : Fin 2) * 128 + 1 * (j 1).val = (j 1).val; omega
  simp only [hA, hX, hWl, hWr, hB]
  -- the result block's place in the array
  show _ = denseAt (V c main_v43) (V c main_v24) (V c main_arg5) (V c main_arg7) (V c main_v44)
    ⟨((((cfg1.win 5).blk t).view.emb j) 0).val, _⟩ ⟨((((cfg1.win 5).blk t).view.emb j) 1).val, _⟩
  have r0 : (⟨((((cfg1.win 5).blk t).view.emb j) 0).val, ((((cfg1.win 5).blk t).view.emb j) 0).isLt⟩ : Fin 50000) = ⟨t.val * 2000 + (j 0).val, by omega⟩ :=
    Fin.ext (by show win1_5.index t (0 : Fin 2) * 2000 + 1 * (j 0).val = t.val * 2000 + (j 0).val; omega)
  have r1 : (⟨((((cfg1.win 5).blk t).view.emb j) 1).val, ((((cfg1.win 5).blk t).view.emb j) 1).isLt⟩ : Fin 128) = ⟨(j 1).val, hj1⟩ :=
    Fin.ext (by show win1_5.index t (1 : Fin 2) * 128 + 1 * (j 1).val = (j 1).val; omega)
  rw [r0, r1]
  rfl

/-- An index of the array is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- Every row lies in the block of the point numbered by the row divided by 2000. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 2000, by show (i 0).val / 2000 < 25; omega⟩
  obtain ⟨e00, e01, e10, e11, e20, e21, e30, e31, e40, e41, e50, e51⟩ := idx_facts t
  have htv : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE ARRAY the region leaves: `dense` of its operands as it finds them. -/
theorem final (c : Dev nD) :
    (dat1 V c).arrAt 5 cfg1.N = dense (V c main_v43) (V c main_v24) (V c main_arg5) (V c main_arg7) (V c main_v44) :=
  (dat1 V c).arrAt_eq_of_cover 5 _ (fun t _ => flushed_eq V c t) covered

end Cert.KernelIdeal.Layer1

end
-- ==== Proof.Bridge.lean ====
/-
  The kernel's result array and the reference's are one function of the eight arguments.

  Both programs aggregate neighbour features the same way (gather the rows of the source nodes, add them into the
  destination nodes, divide by the number of incoming edges, at least one): those host operations are the same terms
  on both sides and are never opened here. What differs is the dense step after each aggregation. The kernel computes,
  block of rows by block of rows, (A·Wl + X·Wr) + b; the reference computes, on whole arrays, (A·Wl + b) + X·Wr. Entry
  by entry both are two sums over the shared coordinate and one bias entry, and addition of extended reals is
  commutative and associative whatever the entries are, infinite ones included: (s + t) + b = (s + b) + t. The first
  layer clamps at zero on both sides, by the same maximum against the same zero. The second layer's aggregation reads
  the first layer's result, which by then is the same array on both sides.
-/
import proofs.«176991_j33432025432488_1_alg».proof.Proof.KernelRun
import proofs.«176991_j33432025432488_1_alg».proof.Proof.Layer0
import proofs.«176991_j33432025432488_1_alg».proof.Proof.Layer1
import proofs.«176991_j33432025432488_1_alg».proof.Proof.Gen.ReferenceIdeal.Read
import Idealize.ShloMosaic.Lib.StableHlo.Run

set_option maxRecDepth 16384

noncomputable section

namespace Cert.Bridge

open Cert.KernelIdeal Cert.KernelIdeal.Gen Cert.ReferenceIdeal.Read
open Idealize.ShloMosaic Idealize.ShloMosaic.TcCoe Idealize.ShloMosaic.ValueIdx Idealize.SL.Sem Idealize.ShloMosaic.StableHlo

/-! ## Part one: each layer's dense step, the two ways of writing it -/

/-- A 256-vector laid out as one row reads, at (0, c), the vector's entry c. -/
theorem row_of_256 {α : Type} (x : S256.Idx → α) (h : S256.ShapeCasts S1x256) (c : Fin 256) :
    shapeCast S1x256 x h (ix2 (0 : Fin 1) c) = x (ix1 c) :=
  shapeCast_apply x h _ _ (by rw [Shape.rowMajor_val_two, Shape.rowMajor_val_one]; show c.val = 0 * 256 + c.val; omega)

/-- A 128-vector laid out as one row reads, at (0, c), the vector's entry c. -/
theorem row_of_128 {α : Type} (x : S128.Idx → α) (h : S128.ShapeCasts S1x128) (c : Fin 128) :
    shapeCast S1x128 x h (ix2 (0 : Fin 1) c) = x (ix1 c) :=
  shapeCast_apply x h _ _ (by rw [Shape.rowMajor_val_two, Shape.rowMajor_val_one]; show c.val = 0 * 128 + c.val; omega)

/-- THE FIRST LAYER. The reference's hidden features max ((A·Wl + b) + X·Wr, 0), with A its own aggregation of the
    node features, are the kernel's dense step max ((A·Wl + X·Wr) + b, 0) of the same operands. -/
theorem hidden_eq (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) :
    Layer0.dense (val_main_v22 (F := Ideal) x0 x1) x0 x2 x4 (shapeCast S1x256 x3 shapeCasts_S256_S1x256)
      = val_main_v29 (F := Ideal) x0 x1 x2 x3 x4 := by
  funext i
  rw [val_main_v29_apply, val_main_v28_apply, val_main_v26_apply, val_main_v23_apply, val_main_v27_apply, val_main_v25_apply,
    val_main_v24_apply, val_main_call0_v0_apply, val_main_call0_cst_apply]
  unfold Layer0.dense Layer0.denseAt
  have hl : ∀ k : Fin 128, lidx_main_v23 i k = ix2 (⟨(i 0).val, (i 0).isLt⟩ : Fin 50000) k := fun k =>
    funext fun a => by match a with | ⟨0, _⟩ => rfl | ⟨1, _⟩ => rfl
  have hr : ∀ k : Fin 128, ridx_main_v23 i k = ix2 k (⟨(i 1).val, (i 1).isLt⟩ : Fin 256) := fun k =>
    funext fun a => by match a with | ⟨0, _⟩ => rfl | ⟨1, _⟩ => rfl
  have hl' : ∀ k : Fin 128, lidx_main_v27 i k = ix2 (⟨(i 0).val, (i 0).isLt⟩ : Fin 50000) k := fun k =>
    funext fun a => by match a with | ⟨0, _⟩ => rfl | ⟨1, _⟩ => rfl
  have hr' : ∀ k : Fin 128, ridx_main_v27 i k = ix2 k (⟨(i 1).val, (i 1).isLt⟩ : Fin 256) := fun k =>
    funext fun a => by match a with | ⟨0, _⟩ => rfl | ⟨1, _⟩ => rfl
  have hb : idx_main_v24 (idx_main_v25 i) = ix1 (⟨(i 1).val, (i 1).isLt⟩ : Fin 256) :=
    funext fun a => by match a with | ⟨0, _⟩ => rfl
  simp only [Ideal.addf_def, Ideal.maximumf_def, Ideal.ofBits_def, row_of_256, hl, hr, hl', hr', hb]
  rw [add_right_comm]

/-- THE SECOND LAYER. The reference's result (A'·Wl + b) + H·Wr, with H its hidden features and A' its aggregation of
    them, is the kernel's dense step (A'·Wl + H·Wr) + b of the same operands. -/
theorem out_eq (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal))
    (x5 : (⟨S256x128, .f32⟩ : BufTy).Contents (Elt Ideal)) (x6 : (⟨S128, .f32⟩ : BufTy).Contents (Elt Ideal)) (x7 : (⟨S256x128, .f32⟩ : BufTy).Contents (Elt Ideal)) :
    Layer1.dense (val_main_v48 (F := Ideal) x0 x1 x2 x3 x4) (val_main_v29 (F := Ideal) x0 x1 x2 x3 x4) x5 x7 (shapeCast S1x128 x6 shapeCasts_S128_S1x128)
      = val_main_v54 (F := Ideal) x0 x1 x2 x3 x4 x5 x6 x7 := by
  funext i
  rw [val_main_v54_apply, val_main_v52_apply, val_main_v49_apply, val_main_v53_apply, val_main_v51_apply, val_main_v50_apply]
  unfold Layer1.dense Layer1.denseAt
  have hl : ∀ k : Fin 256, lidx_main_v49 i k = ix2 (⟨(i 0).val, (i 0).isLt⟩ : Fin 50000) k := fun k =>
    funext fun a => by match a with | ⟨0, _⟩ => rfl | ⟨1, _⟩ => rfl
  have hr : ∀ k : Fin 256, ridx_main_v49 i k = ix2 k (⟨(i 1).val, (i 1).isLt⟩ : Fin 128) := fun k =>
    funext fun a => by match a with | ⟨0, _⟩ => rfl | ⟨1, _⟩ => rfl
  have hl' : ∀ k : Fin 256, lidx_main_v53 i k = ix2 (⟨(i 0).val, (i 0).isLt⟩ : Fin 50000) k := fun k =>
    funext fun a => by match a with | ⟨0, _⟩ => rfl | ⟨1, _⟩ => rfl
  have hr' : ∀ k : Fin 256, ridx_main_v53 i k = ix2 k (⟨(i 1).val, (i 1).isLt⟩ : Fin 128) := fun k =>
    funext fun a => by match a with | ⟨0, _⟩ => rfl | ⟨1, _⟩ => rfl
  have hb : idx_main_v50 (idx_main_v51 i) = ix1 (⟨(i 1).val, (i 1).isLt⟩ : Fin 128) :=
    funext fun a => by match a with | ⟨0, _⟩ => rfl
  simp only [Ideal.addf_def, row_of_128, hl, hr, hl', hr', hb]
  rw [add_right_comm]

/-! ## Part two: the kernel's run, read boundary by boundary -/

variable (m : (ℓ : Loc nD τ sig) → Buf (Elt Ideal) ℓ) (ρ : Dev nD → PrngReg)

/-! ### What the first region finds: the aggregated node features, the node features, the weights, the bias as a row -/

theorem entry0_agg (c : Dev nD) : V1 m ρ c main_v22 = val_main_v22 (F := Ideal) (m ((c : Thread nD τ).loc main_arg0)) (m ((c : Thread nD τ).loc main_arg1)) := by
  show StableHlo.after hostOps0 (W0 m ρ c) (Proc.devRef .tc main_v22) = _
  after_results_simp <;> rfl
theorem entry0_x (c : Dev nD) : V1 m ρ c main_arg0 = (m ((c : Thread nD τ).loc main_arg0)) := by
  show StableHlo.after hostOps0 (W0 m ρ c) (Proc.devRef .tc main_arg0) = _
  after_results_simp <;> rfl
theorem entry0_wl (c : Dev nD) : V1 m ρ c main_arg2 = (m ((c : Thread nD τ).loc main_arg2)) := by
  show StableHlo.after hostOps0 (W0 m ρ c) (Proc.devRef .tc main_arg2) = _
  after_results_simp <;> rfl
theorem entry0_wr (c : Dev nD) : V1 m ρ c main_arg4 = (m ((c : Thread nD τ).loc main_arg4)) := by
  show StableHlo.after hostOps0 (W0 m ρ c) (Proc.devRef .tc main_arg4) = _
  after_results_simp <;> rfl
theorem entry0_b (c : Dev nD) : V1 m ρ c main_v23 = shapeCast S1x256 (m ((c : Thread nD τ).loc main_arg3)) shapeCasts_S256_S1x256 := by
  show StableHlo.after hostOps0 (W0 m ρ c) (Proc.devRef .tc main_v23) = _
  after_results_simp <;> rfl

/-- What the first region leaves: the reference's hidden features. -/
theorem hidden (c : Dev nD) : W2 m ρ c (Proc.devRef .tc main_v24) = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Layer0.final (V1 m ρ) c).trans ?_)
  rw [entry0_agg, entry0_x, entry0_wl, entry0_wr, entry0_b]
  exact hidden_eq _ _ _ _ _

/-! ### What the first region does not touch: the edge lists, the second layer's weights and bias -/

theorem edge_src (c : Dev nD) : W2 m ρ c (Proc.devRef .tc main_v1) = val_main_v1 (F := Ideal) (m ((c : Thread nD τ).loc main_arg1)) := by
  refine (W2_of_ne m ρ c main_v1 (by decide)).trans ?_
  show StableHlo.after hostOps0 (W0 m ρ c) (Proc.devRef .tc main_v1) = _
  after_results_simp <;> rfl
theorem edge_dst (c : Dev nD) : W2 m ρ c (Proc.devRef .tc main_v3) = val_main_v3 (F := Ideal) (m ((c : Thread nD τ).loc main_arg1)) := by
  refine (W2_of_ne m ρ c main_v3 (by decide)).trans ?_
  show StableHlo.after hostOps0 (W0 m ρ c) (Proc.devRef .tc main_v3) = _
  after_results_simp <;> rfl
theorem kept_wl (c : Dev nD) : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = _
  after_results_simp <;> rfl
theorem kept_b (c : Dev nD) : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results_simp <;> rfl
theorem kept_wr (c : Dev nD) : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results_simp <;> rfl

/-! ### What the second region finds -/

theorem entry1_agg (c : Dev nD) : V3 m ρ c main_v43 = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v43) = _
  after_results_simp
  rw [hidden, edge_src, edge_dst]
  rfl
theorem entry1_h (c : Dev nD) : V3 m ρ c main_v24 = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v24) = _
  after_results_simp
  exact hidden m ρ c
theorem entry1_wl (c : Dev nD) : V3 m ρ c main_arg5 = (m ((c : Thread nD τ).loc main_arg5)) := by
  show StableHlo.after hostOps1 (W2 m ρ c) (Proc.devRef .tc main_arg5) = _
  after_results_simp
  exact kept_wl m ρ c
theorem entry1_wr (c : Dev nD) : V3 m ρ c main_arg7 = (m ((c : Thread nD τ).loc main_arg7)) := by
  show StableHlo.after hostOps1 (W2 m ρ c) (Proc.devRef .tc main_arg7) = _
  after_results_simp
  exact kept_wr m ρ c
theorem entry1_b (c : Dev nD) : V3 m ρ c main_v44 = shapeCast S1x128 (m ((c : Thread nD τ).loc main_arg6)) shapeCasts_S128_S1x128 := by
  show StableHlo.after hostOps1 (W2 m ρ c) (Proc.devRef .tc main_v44) = _
  after_results_simp
  rw [kept_b]
  rfl

/-- THE RESULT. What the second region leaves is the reference's result of the same arguments. -/
theorem result (c : Dev nD) : W4 m ρ c (Proc.devRef .tc main_v45) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Layer1.final (V3 m ρ) c).trans ?_)
  rw [entry1_agg, entry1_h, entry1_wl, entry1_wr, entry1_b]
  exact out_eq _ _ _ _ _ _ _ _

end Cert.Bridge

end
-- ==== Proof.lean ====
/-
  A two-layer graph encoder: each layer averages every node's incoming neighbours' features (gather the source rows,
  add them into the destination rows, divide by the number of incoming edges, at least one) and then applies a dense
  step to the averages A and the node's own features X, (A·Wl + X·Wr) + b in the kernel, (A·Wl + b) + X·Wr in the
  reference; the first layer clamps the result at zero, and the second layer works on the first layer's result.

  On the extended reals the two dense steps agree entry by entry because addition is commutative and associative there
  for all entries, infinite ones too, so the precondition (finite inputs) is never opened. The averaging is the same
  sequence of operations on both sides, applied to equal arrays. The kernel computes its dense steps 2000 rows at a
  time; the 25 row blocks tile the 50000 rows, so each region leaves ONE array, a function of what it finds.
  Nothing was rewritten when the kernel was idealized, so that claim is trivial.
-/
import proofs.«176991_j33432025432488_1_alg».proof.Defs
import proofs.«176991_j33432025432488_1_alg».proof.Proof.Gen.Kernel
import proofs.«176991_j33432025432488_1_alg».proof.Proof.Gen.Kernel.Skeleton
import proofs.«176991_j33432025432488_1_alg».proof.Proof.Gen.Kernel.Launch
import proofs.«176991_j33432025432488_1_alg».proof.Proof.Gen.Kernel.Points
import proofs.«176991_j33432025432488_1_alg».proof.Proof.Gen.Kernel.Frame
import proofs.«176991_j33432025432488_1_alg».proof.Proof.Gen.KernelIdeal
import proofs.«176991_j33432025432488_1_alg».proof.Proof.Gen.KernelIdeal.Skeleton
import proofs.«176991_j33432025432488_1_alg».proof.Proof.Gen.KernelIdeal.Launch
import proofs.«176991_j33432025432488_1_alg».proof.Proof.Gen.KernelIdeal.Points
import proofs.«176991_j33432025432488_1_alg».proof.Proof.Gen.KernelIdeal.Frame
import proofs.«176991_j33432025432488_1_alg».proof.Proof.Gen.ReferenceIdeal
import proofs.«176991_j33432025432488_1_alg».proof.Proof.Gen.ReferenceIdeal.Run
import proofs.«176991_j33432025432488_1_alg».proof.Proof.Gen.ReferenceIdeal.Read
import proofs.«176991_j33432025432488_1_alg».proof.Proof.Gen.Pre_finite_inputs
import proofs.«176991_j33432025432488_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the same result array: the reference's
    composed function of the kernel's arguments. -/
theorem algebraic : Cert.algebraic_KernelIdeal_ReferenceIdeal := by
  intro m ρ m' ρ' _ hagree
  refine ⟨fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.Bridge.result m ρ c), (h c).2⟩)
      (Cert.KernelIdeal.RunValue.run m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v54_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
